-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S1200000 : Shape := ⟨1, ![1200000]⟩
abbrev S16384 : Shape := ⟨1, ![16384]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S1200000 : S_.BroadcastsInDim S1200000 (![] : Fin 0 → Fin S1200000.rank)
  reducesTo_S1200000_S_d0 : S1200000.ReducesTo [0] S_

variable [Facts]

def fn {F : FTy → Type} [FloatOps F] (main_arg0 : FVec F S100000x64 .f32) (main_arg1 : FVec F S50000x64 .f32) (main_arg2 : IVec S1200000 32) (main_arg3 : IVec S1200000 32) (main_arg4 : FVec F S1200000 .f32) (main_arg5 : IVec S16384 32) (main_arg6 : IVec S16384 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S1200000 .f32 := Host.absf main_arg4
  let main_cst_2 : FVec F S_ .f32 := constant S_ .f32 0x7F800000#32
  let main_v10 : FVec F S1200000 .f32 := broadcastInDim S1200000 ![] bcast_S_S1200000 main_cst_2
  let main_v11 : IVec S1200000 1 := cmpf .olt main_v9 main_v10
  let main_c_3 : IVec S_ 1 := constantI S_ 1 1#1
  let main_v12 : IVec S_ 1 := (fun x v => Host.reduce IntOp.andi x v reducesTo_S1200000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S1200000 : Shape := ⟨1, ![1200000]⟩
abbrev S16384 : Shape := ⟨1, ![16384]⟩
abbrev S150000x64 : Shape := ⟨2, ![150000, 64]⟩
abbrev S_ : Shape := ⟨0, ![]⟩
abbrev S1200000x1 : Shape := ⟨2, ![1200000, 1]⟩
abbrev S1200000x64 : Shape := ⟨2, ![1200000, 64]⟩
abbrev S20000x64 : Shape := ⟨2, ![20000, 64]⟩
abbrev S20000x1 : Shape := ⟨2, ![20000, 1]⟩
abbrev S16384x1 : Shape := ⟨2, ![16384, 1]⟩
abbrev S16384x64 : Shape := ⟨2, ![16384, 64]⟩
abbrev S2048x64 : Shape := ⟨2, ![2048, 64]⟩
abbrev S2048 : Shape := ⟨1, ![2048]⟩

abbrev nBuf : Space → Nat
  | .hbm => 44
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S1200000, .i32⟩
  | .hbm, ⟨3, _⟩ => ⟨S1200000, .i32⟩
  | .hbm, ⟨4, _⟩ => ⟨S1200000, .f32⟩
  | .hbm, ⟨5, _⟩ => ⟨S16384, .i32⟩
  | .hbm, ⟨6, _⟩ => ⟨S16384, .i32⟩
  | .hbm, ⟨7, _⟩ => ⟨S150000x64, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1200000x64, .f32⟩
  | .hbm, ⟨17, _⟩ => ⟨S1200000x1, .f32⟩
  | .hbm, ⟨18, _⟩ => ⟨S1200000x64, .f32⟩
  | .hbm, ⟨19, _⟩ => ⟨S_, .f32⟩
  | .hbm, ⟨20, _⟩ => ⟨S150000x64, .f32⟩
  | .hbm, ⟨21, _⟩ => ⟨S1200000x1, .i32⟩
  | .hbm, ⟨22, _⟩ => ⟨S150000x64, .f32⟩
  | .hbm, ⟨23, _⟩ => ⟨S100000x64, .f32⟩
  | .hbm, ⟨24, _⟩ => ⟨S50000x64, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384x64, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S16384x64, .f32⟩
  | .hbm, ⟨43, _⟩ => ⟨S16384, .f32⟩
  | .local _ .vmem, ⟨0, _⟩ => ⟨S20000x64, .f32⟩
  | .local _ .vmem, ⟨1, _⟩ => ⟨S20000x64, .f32⟩
  | .local _ .vmem, ⟨2, _⟩ => ⟨S20000x1, .f32⟩
  | .local _ .vmem, ⟨3, _⟩ => ⟨S20000x1, .f32⟩
  | .local _ .vmem, ⟨4, _⟩ => ⟨S20000x64, .f32⟩
  | .local _ .vmem, ⟨5, _⟩ => ⟨S20000x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048, .f32⟩
  | .local _ .vmem, ⟨11, _⟩ => ⟨S2048, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S100000x64_S50000x64_S150000x64_d0 : Shape.Concatenates [S100000x64, S50000x64] S150000x64 0
  bcast_S_S1200000 : S_.BroadcastsInDim S1200000 (![] : Fin 0 → Fin S1200000.rank)
  bcast_S1200000_S1200000x1_0 : S1200000.BroadcastsInDim S1200000x1 (![0] : Fin 1 → Fin S1200000x1.rank)
  shapeCasts_S1200000_S1200000x1 : S1200000.ShapeCasts S1200000x1
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x64 : S20000x1.Broadcasts S20000x64
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S16384 : S_.BroadcastsInDim S16384 (![] : Fin 0 → Fin S16384.rank)
  bcast_S16384_S16384x1_0 : S16384.BroadcastsInDim S16384x1 (![0] : Fin 1 → Fin S16384x1.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  inb_S2048_S2048_0 : ∀ a, (![0] : Fin 1 → Nat) a + S2048.size a ≤ S2048.size a
  h_S2048 : 0 < S2048.numel
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S1200000x64.size a
  hwx0_0 : ∀ i : grid0.Coords, EltTy.bits .f32 = 32 ∨ (Rect.block (s := S1200000x64) S20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S1200000x1.size a
  hwx0_1 : ∀ i : grid0.Coords, EltTy.bits .f32 = 32 ∨ (Rect.block (s := S1200000x1) S20000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S1200000x64.size a
  hwx0_2 : ∀ i : grid0.Coords, EltTy.bits .f32 = 32 ∨ (Rect.block (s := S1200000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S16384.size a
  hwx1_2 : ∀ i : grid1.Coords, EltTy.bits .f32 = 32 ∨ (Rect.block (s := S16384) S2048.size (cc1_transform_2 i) (hinb1_2 i)).WholeWords (EltTy.packing .f32)

variable [Facts₀]

def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

abbrev win0_0 : Pipeline.Window sig grid0 :=
  Pipeline.Window.ofSpec (Memref.whole main_v7) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S1200000 : Shape := ⟨1, ![1200000]⟩
abbrev S16384 : Shape := ⟨1, ![16384]⟩
abbrev S150000x64 : Shape := ⟨2, ![150000, 64]⟩
abbrev S1200000x1 : Shape := ⟨2, ![1200000, 1]⟩
abbrev S_ : Shape := ⟨0, ![]⟩
abbrev S1200000x64 : Shape := ⟨2, ![1200000, 64]⟩
abbrev S16384x1 : Shape := ⟨2, ![16384, 1]⟩
abbrev S16384x64 : Shape := ⟨2, ![16384, 64]⟩

abbrev nBuf : Space → Nat
  | .hbm => 47
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S1200000, .i32⟩
  | .hbm, ⟨3, _⟩ => ⟨S1200000, .i32⟩
  | .hbm, ⟨4, _⟩ => ⟨S1200000, .f32⟩
  | .hbm, ⟨5, _⟩ => ⟨S16384, .i32⟩
  | .hbm, ⟨6, _⟩ => ⟨S16384, .i32⟩
  | .hbm, ⟨7, _⟩ => ⟨S150000x64, .f32⟩
  | .hbm, ⟨8, _⟩ => ⟨S1200000x1, .f32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x64, .f32⟩
  | .hbm, ⟨18, _⟩ => ⟨S1200000x64, .f32⟩
  | .hbm, ⟨19, _⟩ => ⟨S1200000x64, .f32⟩
  | .hbm, ⟨20, _⟩ => ⟨S_, .f32⟩
  | .hbm, ⟨21, _⟩ => ⟨S150000x64, .f32⟩
  | .hbm, ⟨22, _⟩ => ⟨S1200000x1, .i32⟩
  | .hbm, ⟨23, _⟩ => ⟨S150000x64, .f32⟩
  | .hbm, ⟨24, _⟩ => ⟨S100000x64, .f32⟩
  | .hbm, ⟨25, _⟩ => ⟨S50000x64, .f32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384x64, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S16384x64, .f32⟩
  | .hbm, ⟨44, _⟩ => ⟨S16384x64, .f32⟩
  | .hbm, ⟨45, _⟩ => ⟨S_, .f32⟩
  | .hbm, ⟨46, _⟩ => ⟨S16384, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]

variable [Facts₀]

def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

class Facts : Prop extends Facts₀ where

variable [Facts]
-- ==== Proof.ScaleRegion.lean ====
/-
  Region 0 of the kernel, the row scaling: the pallas_call multiplies each row of a [1200000, 64] array by that row's
  entry of a [1200000, 1] column, 20000 rows to a grid point. Whatever the two arrays hold when the region is
  entered, the output array ends holding, at (r, k), the product of the first array at (r, k) and the column at (r, 0).
-/
import proofs.«169325_j47425028882648_1_alg».proof.Proof.Gen.KernelIdeal.Frame
import Idealize.ShloMosaic.Lib.Pipeline.Value
import Idealize.ShloMosaic.Lib.ValueIdx

set_option maxRecDepth 16384

noncomputable section

namespace Cert.KernelIdeal.ScaleRegion

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-- The column entry a full-width index reads: the same row, column 0. -/
def colOf (i : S1200000x64.Idx) : S1200000x1.Idx :=
  fun a => match a with | ⟨0, _⟩ => i 0 | ⟨1, _⟩ => ⟨0, Nat.one_pos⟩

/-- Each row of `x` scaled by that row's entry of the column `v`. -/
def scaled (x : S1200000x64.Idx → Elt F .f32) (v : S1200000x1.Idx → Elt F .f32) : S1200000x64.Idx → Elt F .f32 :=
  fun i => FloatOps.mulf (x i) (v (colOf i))

theorem hz2 : (![0, 0] : Fin 2 → Nat) = fun _ => 0 := funext fun a => by fin_cases a <;> rfl

/-- The body's product at a block index: the block's entry times the column block's entry of the same row. -/
theorem pay_apply (x0 : Vec F S20000x64 .f32) (x1 : Vec F S20000x1 .f32) (j : S20000x64.Idx) (k : S20000x1.Idx)
    (hk0 : (k 0).val = (j 0).val) (hk1 : (k 1).val = 0) :
    k0_pay1 x0 x1 j = FloatOps.mulf (x0 j) (x1 k) := by
  unfold k0_pay1
  show FloatOps.mulf (shapeCast S20000x64 x0 _ j) (broadcastTo S20000x64 (shapeCast S20000x1 x1 _) _ j) = _
  rw [shapeCast_self, shapeCast_self]
  refine congrArg (FloatOps.mulf (x0 j)) ?_
  refine broadcastTo_apply x1 _ j k fun a => ?_
  match a with
  | ⟨0, _⟩ => exact hk0
  | ⟨1, _⟩ => exact hk1

variable (V : (c : Dev nD) → (b : Ref sig .tc) → Buf (Elt F) ((c : Thread nD τ).loc b))

/-- The printed index maps over the 60 grid points: at point `t` every window sits at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the scaled rows of the arrays the region finds. -/
theorem flushed_eq (c : Dev nD) (t : Fin cfg0.N) :
    (dat0 V c).flushed 2 t = ((cfg0.win 2).blk t).view.read (Elt F) (scaled (V c main_v7) (V c main_v8)) := by
  show (cfg0.win 2).cut (grid0.coords t) ((dat0 V c).after 2 t) = _
  rw [after0_2]
  unfold out0_2
  rw [View.canon_unit_zero hz2]
  simp only [View.ld_unit_zero (S := S20000x64) hz2, View.ld_unit_zero (S := S20000x1) hz2]
  obtain ⟨e0, e1, e2, e3, e4, e5⟩ := idx_facts t
  funext j
  show k0_pay1 (iblk0 V c 0 t) (iblk0 V c 1 t) j = scaled (V c main_v7) (V c main_v8) (((cfg0.win 2).blk t).view.emb j)
  let k : S20000x1.Idx := fun a => match a with | ⟨0, _⟩ => j 0 | ⟨1, _⟩ => ⟨0, Nat.one_pos⟩
  refine (pay_apply (iblk0 V c 0 t) (iblk0 V c 1 t) j k rfl rfl).trans ?_
  unfold scaled
  show FloatOps.mulf (V c main_v7 (((cfg0.win 0).blk t).view.emb j)) (V c main_v8 (((cfg0.win 1).blk t).view.emb k))
    = FloatOps.mulf (V c main_v7 (((cfg0.win 2).blk t).view.emb j)) (V c main_v8 (colOf (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 20000 + 1 * (j 0).val = win0_2.index t (0 : Fin 2) * 20000 + 1 * (j 0).val; rw [e0, e4]
    | ⟨1, _⟩ => show win0_0.index t (1 : Fin 2) * 64 + 1 * (j 1).val = win0_2.index t (1 : Fin 2) * 64 + 1 * (j 1).val; rw [e1, e5]
  have h1 : ((cfg0.win 1).blk t).view.emb k = colOf (((cfg0.win 2).blk t).view.emb j) := by
    funext a; apply Fin.ext
    match a with
    | ⟨0, _⟩ => show win0_1.index t (0 : Fin 2) * 20000 + 1 * (j 0).val = win0_2.index t (0 : Fin 2) * 20000 + 1 * (j 0).val; rw [e2, e4]
    | ⟨1, _⟩ => show win0_1.index t (1 : Fin 2) * 1 + 1 * 0 = 0; rw [e3]
  rw [h0, h1]

/-- An index of the output array is in point `t`'s block iff each coordinate is in the block's range on its axis. -/
theorem mem_blk (t : Fin cfg0.N) (i : S1200000x64.Idx) :
    i ∈ ((cfg0.win 2).blk t).view.set ↔ ∀ a : Fin 2, win0_2.index t a * S20000x64.size a ≤ (i a).val
      ∧ (i a).val < win0_2.index t a * S20000x64.size a + S20000x64.size a := by
  show i ∈ ((View.whole main_v9).slice (win0_2.rect t)).set ↔ _
  rw [View.set_slice_whole, Rect.mem_set_unit]
  exact Iff.rfl

/-- The 60 blocks of 20000 rows tile the array (row `r` lies in block `r / 20000`), so the output array ends holding
    the scaled rows. -/
theorem final (c : Dev nD) : (dat0 V c).arrAt 2 cfg0.N = scaled (V c main_v7) (V c main_v8) :=
  (dat0 V c).arrAt_eq_of_cover 2 (scaled (V c main_v7) (V c main_v8)) (fun t _ => flushed_eq V c t) fun i => by
    have hi0 : (i 0).val < 1200000 := (i 0).isLt
    have hi1 : (i 1).val < 64 := (i 1).isLt
    have hN : cfg0.N = 60 := N_0
    let tt : Fin cfg0.N := ⟨(i 0).val / 20000, by rw [hN]; omega⟩
    have htt : tt.val = (i 0).val / 20000 := rfl
    refine ⟨tt, flush0_2 tt, ?_⟩
    obtain ⟨-, -, -, -, e4, e5⟩ := idx_facts tt
    refine (mem_blk tt i).mpr fun a => ?_
    match a with
    | ⟨0, _⟩ =>
      show win0_2.index tt (0 : Fin 2) * 20000 ≤ (i 0).val ∧ (i 0).val < win0_2.index tt (0 : Fin 2) * 20000 + 20000
      rw [e4, htt]; omega
    | ⟨1, _⟩ =>
      show win0_2.index tt (1 : Fin 2) * 64 ≤ (i 1).val ∧ (i 1).val < win0_2.index tt (1 : Fin 2) * 64 + 64
      rw [e5]; omega

end Cert.KernelIdeal.ScaleRegion

end
-- ==== Proof.DotRegion.lean ====
/-
  Region 1 of the kernel, the row dot products: the pallas_call multiplies two [16384, 64] arrays entry by entry and
  sums each row, 2048 rows to a grid point. At the extended reals, whatever the two arrays hold when the region is
  entered, the output array ends holding at row r the sum over k of the products of the two arrays' entries at (r, k).
-/
import proofs.«169325_j47425028882648_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.DotRegion

open Cert.KernelIdeal Cert.KernelIdeal.Gen
open Idealize.ShloMosaic Idealize.ShloMosaic.TcCoe Idealize.SL.Sem Idealize.ShloMosaic.ValueIdx
open Idealize.ShloMosaic.Pipeline (Dat)

/-- Entry `k` of row `i` of a [16384, 64] array. -/
def rowAt (i : S16384.Idx) (k : Fin 64) : S16384x64.Idx :=
  fun a => match a with | ⟨0, _⟩ => i 0 | ⟨1, _⟩ => k

/-- The dot product of each row of `a` with the same row of `b`. -/
def rowDots (a b : S16384x64.Idx → Elt Ideal .f32) : S16384.Idx → Elt Ideal .f32 :=
  fun i => ∑ k : Fin 64, (fun (x y : Elt Ideal .f32) => x * y) (a (rowAt i k)) (b (rowAt i k))

theorem hz2 : (![0, 0] : Fin 2 → Nat) = fun _ => 0 := funext fun a => by fin_cases a <;> rfl
theorem hz1 : (![0] : Fin 1 → Nat) = fun _ => 0 := funext fun a => by fin_cases a; rfl

/-- Entry `k` of row `j` of a [2048, 64] block. -/
def blkRowAt (j : S2048.Idx) (k : Fin 64) : S2048x64.Idx :=
  fun a => match a with | ⟨0, _⟩ => j 0 | ⟨1, _⟩ => k

/-- The body's lane sum at a block row: the sum over the 64 lanes of the products of the two blocks' entries. -/
theorem pay_apply (x0 x1 : Vec Ideal S2048x64 .f32) (j : S2048.Idx) :
    k1_pay1 x0 x1 j = ∑ k : Fin 64, (fun (x y : Elt Ideal .f32) => x * y) (x0 (blkRowAt j k)) (x1 (blkRowAt j k)) := by
  unfold k1_pay1
  show multiReduction (F := Ideal) (φ := .f32) .add [1] S2048 (mulf (shapeCast S2048x64 x0 shapeCasts_S2048x64_S2048x64) (shapeCast S2048x64 x1 shapeCasts_S2048x64_S2048x64)) 0x00000000#32 _ _ _ j = _
  rw [shapeCast_self, shapeCast_self]
  refine (Ideal.multiReduction_add_single (mulf x0 x1) 0x00000000#32 reduces_S2048x64_S2048 (.inl rfl) rfl j).trans ?_
  refine Finset.sum_congr rfl fun k _ => ?_
  have hl : reduces_S2048x64_S2048.lift j k = blkRowAt j k := by
    funext a; apply Fin.ext
    match a with
    | ⟨0, _⟩ => rfl
    | ⟨1, _⟩ => rfl
  rw [hl]
  rfl

variable (V : (c : Dev nD) → (b : Ref sig .tc) → Buf (Elt Ideal) ((c : Thread nD τ).loc b))

/-- The printed index maps over the 8 grid points: at point `t` every window sits at block row `t`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = t.val :=
  (by decide +kernel : ∀ t : Fin grid1.N, _)

/-- An entry of input window 0's block at point `t` is the entry of the array `main_v21` it sits at. -/
theorem blk_read0 (c : Dev nD) (t : Fin cfg1.N) (y : S2048x64.Idx) (i : S16384x64.Idx)
    (h : ((cfg1.win 0).blk t).view.emb y = i) :
    (iblk1 V c 0 t : Vec Ideal S2048x64 .f32) y = (V c main_v21 : S16384x64.Idx → Elt Ideal .f32) i := by
  subst h; rfl
/-- An entry of input window 1's block at point `t` is the entry of the array `main_v28` it sits at. -/
theorem blk_read1 (c : Dev nD) (t : Fin cfg1.N) (y : S2048x64.Idx) (i : S16384x64.Idx)
    (h : ((cfg1.win 1).blk t).view.emb y = i) :
    (iblk1 V c 1 t : Vec Ideal S2048x64 .f32) y = (V c main_v28 : S16384x64.Idx → Elt Ideal .f32) i := by
  subst h; rfl

/-- What point `t` writes back is block `t` of the row dot products of the arrays the region finds. -/
theorem flushed_eq (c : Dev nD) (t : Fin cfg1.N) :
    (dat1 V c).flushed 2 t = ((cfg1.win 2).blk t).view.read (Elt Ideal) (rowDots (V c main_v21) (V c main_v28)) := by
  show (cfg1.win 2).cut (grid1.coords t) ((dat1 V c).after 2 t) = _
  rw [after1_2]
  unfold out1_2
  rw [View.canon_unit_zero hz1]
  simp only [View.ld_unit_zero (S := S2048x64) hz2]
  obtain ⟨e0, e1, e2, e3, e4⟩ := idx_facts t
  funext j
  show k1_pay1 (iblk1 V c 0 t) (iblk1 V c 1 t) j = rowDots (V c main_v21) (V c main_v28) (((cfg1.win 2).blk t).view.emb j)
  refine (pay_apply (iblk1 V c 0 t) (iblk1 V c 1 t) j).trans ?_
  unfold rowDots
  refine Finset.sum_congr rfl fun k _ => ?_
  have h0 : ((cfg1.win 0).blk t).view.emb (blkRowAt j k) = rowAt (((cfg1.win 2).blk t).view.emb j) k := by
    funext a; apply Fin.ext
    match a with
    | ⟨0, _⟩ => show win1_0.index t (0 : Fin 2) * 2048 + 1 * (j 0).val = win1_2.index t (0 : Fin 1) * 2048 + 1 * (j 0).val; rw [e0, e4]
    | ⟨1, _⟩ => show win1_0.index t (1 : Fin 2) * 64 + 1 * k.val = k.val; rw [e1]; omega
  have h1 : ((cfg1.win 1).blk t).view.emb (blkRowAt j k) = rowAt (((cfg1.win 2).blk t).view.emb j) k := by
    funext a; apply Fin.ext
    match a with
    | ⟨0, _⟩ => show win1_1.index t (0 : Fin 2) * 2048 + 1 * (j 0).val = win1_2.index t (0 : Fin 1) * 2048 + 1 * (j 0).val; rw [e2, e4]
    | ⟨1, _⟩ => show win1_1.index t (1 : Fin 2) * 64 + 1 * k.val = k.val; rw [e3]; omega
  exact congrArg₂ (fun (x y : Elt Ideal .f32) => x * y) (blk_read0 V c t _ _ h0) (blk_read1 V c t _ _ h1)

/-- A row of the output array is in point `t`'s block iff it is in the block's range. -/
theorem mem_blk (t : Fin cfg1.N) (i : S16384.Idx) :
    i ∈ ((cfg1.win 2).blk t).view.set ↔ ∀ a : Fin 1, win1_2.index t a * S2048.size a ≤ (i a).val
      ∧ (i a).val < win1_2.index t a * S2048.size a + S2048.size a := by
  show i ∈ ((View.whole main_v29).slice (win1_2.rect t)).set ↔ _
  rw [View.set_slice_whole, Rect.mem_set_unit]
  exact Iff.rfl

/-- The 8 blocks of 2048 rows tile the array (row `r` lies in block `r / 2048`), so the output array ends holding the
    row dot products. -/
theorem final (c : Dev nD) : (dat1 V c).arrAt 2 cfg1.N = rowDots (V c main_v21) (V c main_v28) :=
  (dat1 V c).arrAt_eq_of_cover 2 (rowDots (V c main_v21) (V c main_v28)) (fun t _ => flushed_eq V c t) fun i => by
    have hi0 : (i 0).val < 16384 := (i 0).isLt
    have hN : cfg1.N = 8 := N_1
    let tt : Fin cfg1.N := ⟨(i 0).val / 2048, by rw [hN]; omega⟩
    have htt : tt.val = (i 0).val / 2048 := rfl
    refine ⟨tt, flush1_2 tt, ?_⟩
    obtain ⟨-, -, -, -, e4⟩ := idx_facts tt
    refine (mem_blk tt i).mpr fun a => ?_
    match a with
    | ⟨0, _⟩ =>
      show win1_2.index tt (0 : Fin 1) * 2048 ≤ (i 0).val ∧ (i 0).val < win1_2.index tt (0 : Fin 1) * 2048 + 2048
      rw [e4, htt]; omega

end Cert.KernelIdeal.DotRegion

end
-- ==== Proof.HostStages.lean ====
/-
  The host side of the kernel's program, stage by stage, as functions of the argument arrays: the embedding table
  (users' rows above items' rows), the rows gathered at the wrapped column indices, the values as a column, the
  scatter-add of the messages into a zero table at the row indices, and the rows of its two halves gathered at the
  wrapped query indices. (A negative index wraps once by the table's height before the gather reads it.)
-/
import proofs.«169325_j47425028882648_1_alg».proof.Proof.Gen.KernelIdeal

noncomputable section

namespace Cert.KernelIdeal.Stages

open Cert.KernelIdeal Idealize.ShloMosaic
open Cert.KernelIdeal.Facts₀

variable {F : FTy → Type} [FloatOps F]

/-- The users' embeddings stacked above the items'. -/
def table (a0 : FVec F S100000x64 .f32) (a1 : FVec F S50000x64 .f32) : FVec F S150000x64 .f32 :=
  concatenate S150000x64 0 [⟨S100000x64, a0⟩, ⟨S50000x64, a1⟩] concatenates_S100000x64_S50000x64_S150000x64_d0

/-- The column indices, a negative one wrapped by the table's 150000 rows, as a column of start indices. -/
def colStarts (a3 : IVec S1200000 32) : IVec S1200000x1 32 :=
  broadcastInDim S1200000x1 ![0] bcast_S1200000_S1200000x1_0
    (select (cmpi .slt a3 (broadcastInDim S1200000 ![] bcast_S_S1200000 (constantI S_ 32 0#32)))
      (addi a3 (broadcastInDim S1200000 ![] bcast_S_S1200000 (constantI S_ 32 150000#32))) a3)

/-- The table's rows at the column indices. -/
def gathered (a0 : FVec F S100000x64 .f32) (a1 : FVec F S50000x64 .f32) (a3 : IVec S1200000 32) : FVec F S1200000x64 .f32 :=
  Host.gather gather_S150000x64_S1200000x1_S1200000x64_1_0_n_n_0_1_164 (table a0 a1) (colStarts a3)

/-- The edge values as a [1200000, 1] column. -/
def column (a4 : FVec F S1200000 .f32) : FVec F S1200000x1 .f32 :=
  shapeCast S1200000x1 a4 shapeCasts_S1200000_S1200000x1

/-- The messages summed into a zero table at their row indices. -/
def propagated (a2 : IVec S1200000 32) (msgs : FVec F S1200000x64 .f32) : FVec F S150000x64 .f32 :=
  Host.scatterAdd scatter_S150000x64_S1200000x1_S1200000x64_1_0_0_1
    (broadcastInDim S150000x64 ![] bcast_S_S150000x64 (constant S_ .f32 0x00000000#32))
    (broadcastInDim S1200000x1 ![0] bcast_S1200000_S1200000x1_0 a2) msgs

/-- The users' half of the propagated table at the query users (a negative index wrapped by 100000). -/
def userRows (a5 : IVec S16384 32) (p : FVec F S150000x64 .f32) : FVec F S16384x64 .f32 :=
  Host.gather gather_S100000x64_S16384x1_S16384x64_1_0_n_n_0_1_164
    (extractStridedSlice S100000x64 ![0, 0] p slices_S150000x64_S100000x64_0_0)
    (broadcastInDim S16384x1 ![0] bcast_S16384_S16384x1_0
      (select (cmpi .slt a5 (broadcastInDim S16384 ![] bcast_S_S16384 (constantI S_ 32 0#32)))
        (addi a5 (broadcastInDim S16384 ![] bcast_S_S16384 (constantI S_ 32 100000#32))) a5))

/-- The items' half of the propagated table at the query items (a negative index wrapped by 50000). -/
def itemRows (a6 : IVec S16384 32) (p : FVec F S150000x64 .f32) : FVec F S16384x64 .f32 :=
  Host.gather gather_S50000x64_S16384x1_S16384x64_1_0_n_n_0_1_164
    (extractStridedSlice S50000x64 ![100000, 0] p slices_S150000x64_S50000x64_100000_0)
    (broadcastInDim S16384x1 ![0] bcast_S16384_S16384x1_0
      (select (cmpi .slt a6 (broadcastInDim S16384 ![] bcast_S_S16384 (constantI S_ 32 0#32)))
        (addi a6 (broadcastInDim S16384 ![] bcast_S_S16384 (constantI S_ 32 50000#32))) a6))

end Cert.KernelIdeal.Stages

end
-- ==== Proof.KernelValue.lean ====
/-
  The kernel's result array as a function of the argument arrays, at the extended reals: the boundary contents of
  the run are read back one segment at a time. Region 1 leaves the row dot products of the two gathered arrays; those are
  the second stretch of host operations applied to what region 0 left, the scaled rows; and region 0's inputs are the
  first stretch applied to the arguments.
-/
import proofs.«169325_j47425028882648_1_alg».proof.Proof.KernelIdealRun
import proofs.«169325_j47425028882648_1_alg».proof.Proof.ScaleRegion
import proofs.«169325_j47425028882648_1_alg».proof.Proof.DotRegion
import proofs.«169325_j47425028882648_1_alg».proof.Proof.HostStages
import Idealize.ShloMosaic.Lib.StableHlo.Run

set_option maxRecDepth 16384

noncomputable section

namespace Cert.KernelIdeal.KernelValue

open Cert.KernelIdeal Cert.KernelIdeal.Gen Cert.KernelIdeal.Stages
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The argument arrays as launched, at their literal types -/

abbrev a0 (c : Dev nD) : FVec Ideal S100000x64 .f32 := m ((c.tc : Thread nD τ).loc main_arg0)
abbrev a1 (c : Dev nD) : FVec Ideal S50000x64 .f32 := m ((c.tc : Thread nD τ).loc main_arg1)
abbrev a2 (c : Dev nD) : IVec S1200000 32 := m ((c.tc : Thread nD τ).loc main_arg2)
abbrev a3 (c : Dev nD) : IVec S1200000 32 := m ((c.tc : Thread nD τ).loc main_arg3)
abbrev a4 (c : Dev nD) : FVec Ideal S1200000 .f32 := m ((c.tc : Thread nD τ).loc main_arg4)
abbrev a5 (c : Dev nD) : IVec S16384 32 := m ((c.tc : Thread nD τ).loc main_arg5)
abbrev a6 (c : Dev nD) : IVec S16384 32 := m ((c.tc : Thread nD τ).loc main_arg6)

/-! ## Region 0's entry: the first stretch of host operations applied to the arguments -/

theorem entry0_rows (c : Dev nD) : V1 m ρ c main_v7 = gathered (a0 m c) (a1 m c) (a3 m c) := by
  show StableHlo.after hostOps0 (W0 m ρ c) (Proc.devRef .tc main_v7) = _
  after_results
  rfl

theorem entry0_column (c : Dev nD) : V1 m ρ c main_v8 = column (a4 m c) := by
  show StableHlo.after hostOps0 (W0 m ρ c) (Proc.devRef .tc main_v8) = _
  after_results
  rfl

/-- An argument no host operation of the first stretch writes is, at region 0's entry, as launched. -/
theorem entry0_arg2 (c : Dev nD) : W1 m ρ c (Proc.devRef .tc main_arg2) = m ((c.tc : Thread nD τ).loc main_arg2) := by
  show StableHlo.after hostOps0 (W0 m ρ c) (Proc.devRef .tc main_arg2) = _
  after_results
theorem entry0_arg5 (c : Dev nD) : W1 m ρ c (Proc.devRef .tc main_arg5) = m ((c.tc : Thread nD τ).loc main_arg5) := by
  show StableHlo.after hostOps0 (W0 m ρ c) (Proc.devRef .tc main_arg5) = _
  after_results
theorem entry0_arg6 (c : Dev nD) : W1 m ρ c (Proc.devRef .tc main_arg6) = m ((c.tc : Thread nD τ).loc main_arg6) := by
  show StableHlo.after hostOps0 (W0 m ρ c) (Proc.devRef .tc main_arg6) = _
  after_results

/-! ## Region 0's exit -/

/-- The scaled rows region 0 leaves in its output array. -/
abbrev msgs (c : Dev nD) : FVec Ideal S1200000x64 .f32 :=
  ScaleRegion.scaled (gathered (a0 m c) (a1 m c) (a3 m c)) (column (a4 m c))

theorem exit0_msgs (c : Dev nD) : W2 m ρ c (Proc.devRef .tc main_v9) = msgs m c := by
  refine (W2_arr m ρ c 2).trans ?_
  rw [ScaleRegion.final (V1 m ρ) c, entry0_rows, entry0_column]

theorem exit0_arg2 (c : Dev nD) : W2 m ρ c (Proc.devRef .tc main_arg2) = m ((c.tc : Thread nD τ).loc main_arg2) :=
  (W2_of_ne m ρ c main_arg2 (by decide)).trans (entry0_arg2 m ρ c)
theorem exit0_arg5 (c : Dev nD) : W2 m ρ c (Proc.devRef .tc main_arg5) = m ((c.tc : Thread nD τ).loc main_arg5) :=
  (W2_of_ne m ρ c main_arg5 (by decide)).trans (entry0_arg5 m ρ c)
theorem exit0_arg6 (c : Dev nD) : W2 m ρ c (Proc.devRef .tc main_arg6) = m ((c.tc : Thread nD τ).loc main_arg6) :=
  (W2_of_ne m ρ c main_arg6 (by decide)).trans (entry0_arg6 m ρ c)

/-! ## Region 1's entry: the second stretch applied to region 0's exit -/

/-- The propagated table: the messages summed at their row indices. -/
abbrev prop (c : Dev nD) : FVec Ideal S150000x64 .f32 := propagated (a2 m c) (msgs m c)

theorem entry1_users (c : Dev nD) : V3 m ρ c main_v21 = userRows (a5 m c) (prop m c) := by
  show StableHlo.after hostOps1 (W2 m ρ c) (Proc.devRef .tc main_v21) = _
  after_results
  rw [exit0_msgs, exit0_arg2, exit0_arg5]
  rfl

theorem entry1_items (c : Dev nD) : V3 m ρ c main_v28 = itemRows (a6 m c) (prop m c) := by
  show StableHlo.after hostOps1 (W2 m ρ c) (Proc.devRef .tc main_v28) = _
  after_results_simp
  rw [exit0_msgs, exit0_arg2, exit0_arg6]
  rfl

/-! ## Region 1's exit: the result -/

/-- The kernel's result: the dot product of each query's propagated user row and item row. -/
abbrev result (c : Dev nD) : FVec Ideal S16384 .f32 :=
  DotRegion.rowDots (userRows (a5 m c) (prop m c)) (itemRows (a6 m c) (prop m c))

theorem exit1_result (c : Dev nD) : W4 m ρ c (Proc.devRef .tc main_v29) = result m c := by
  refine (W4_arr m ρ c 2).trans ?_
  rw [DotRegion.final (V3 m ρ) c, entry1_users, entry1_items]

/-- The run of the kernel's @main at the extended reals: the result array ends at `result`, the arguments as launched. -/
theorem run : θ_run defs (onTc (τ := τ) (main (F := Ideal))) ⟨m, fun _ => 0, ρ⟩ (fun r => ∀ c : Dev nD,
      r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (exit1_result m ρ c), (h c).2⟩) (RunValue.run_main m ρ)

end Cert.KernelIdeal.KernelValue

end
-- ==== Proof.Bridge.lean ====
/-
  The two laws that join the kernel's value to the reference's, at the extended reals.
  Scaling: the kernel multiplies each gathered row by its edge value read from a [n, 1] column (the values reshaped);
  the reference multiplies the values, broadcast along each row, by the gathered rows. The two column readings pick the
  same entry and the product commutes.
  Dot products: the kernel's lane sum of the products of two rows is the reference's host sum over axis 1 from the
  initial value 0, since 0 is neutral for the sum.
-/
import proofs.«169325_j47425028882648_1_alg».proof.Proof.ScaleRegion
import proofs.«169325_j47425028882648_1_alg».proof.Proof.DotRegion
import proofs.«169325_j47425028882648_1_alg».proof.Proof.HostStages
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Bridge

open Cert.KernelIdeal Cert.KernelIdeal.Stages
open Idealize.ShloMosaic Idealize.ShloMosaic.ValueIdx

/-- Row `r` of the values, as an index of the flat array. -/
def flatOf (i : S1200000x64.Idx) : S1200000.Idx := fun a => match a with | ⟨0, _⟩ => i 0

/-- The reshaped column at (r, 0) is the flat array at r. -/
theorem column_apply (a4 : FVec Ideal S1200000 .f32) (i : S1200000x64.Idx) :
    column a4 (ScaleRegion.colOf i) = a4 (flatOf i) := by
  unfold column
  refine shapeCast_apply a4 _ (ScaleRegion.colOf i) (flatOf i) ?_
  rw [Shape.rowMajor_val_one, Shape.rowMajor_val_two]
  show (i 0).val = (i 0).val * 1 + 0
  omega

/-- The values broadcast to a column and then along each row read, at (r, k), the flat array at r. -/
theorem spread_apply (a4 : FVec Ideal S1200000 .f32)
    (hb : S1200000.BroadcastsInDim S1200000x1 (![0] : Fin 1 → Fin S1200000x1.rank))
    (hbb : S1200000x1.BroadcastsInDim S1200000x64 (![0, 1] : Fin 2 → Fin S1200000x64.rank)) (i : S1200000x64.Idx) :
    broadcastInDim S1200000x64 ![0, 1] hbb (broadcastInDim S1200000x1 ![0] hb a4) i = a4 (flatOf i) := by
  refine (broadcastInDim_apply ![0, 1] hbb _ i (ScaleRegion.colOf i) fun a => ?_).trans
    (broadcastInDim_apply ![0] hb a4 (ScaleRegion.colOf i) (flatOf i) fun a => ?_)
  · match a with
    | ⟨0, _⟩ => rfl
    | ⟨1, _⟩ => rfl
  · match a with
    | ⟨0, _⟩ => rfl

/-- The kernel's scaled rows are the reference's product of the spread values with the rows. -/
theorem scaled_eq (X : FVec Ideal S1200000x64 .f32) (a4 : FVec Ideal S1200000 .f32)
    (hb : S1200000.BroadcastsInDim S1200000x1 (![0] : Fin 1 → Fin S1200000x1.rank))
    (hbb : S1200000x1.BroadcastsInDim S1200000x64 (![0, 1] : Fin 2 → Fin S1200000x64.rank)) :
    ScaleRegion.scaled X (column a4)
      = mulf (broadcastInDim S1200000x64 ![0, 1] hbb (broadcastInDim S1200000x1 ![0] hb a4)) X := by
  funext i
  show X i * column a4 (ScaleRegion.colOf i) = broadcastInDim S1200000x64 ![0, 1] hbb (broadcastInDim S1200000x1 ![0] hb a4) i * X i
  rw [column_apply, spread_apply]
  exact mul_comm _ _

/-- The kernel's row dot products are the reference's host sum, from 0, over axis 1 of the products. -/
theorem rowDots_eq (A B : FVec Ideal S16384x64 .f32) (hR : S16384x64.ReducesTo [1] S16384) (hS : 0 < S_.numel) :
    DotRegion.rowDots A B = Host.reduceAdd (mulf A B) (constant (F := Ideal) S_ .f32 0x00000000#32) hR hS := by
  funext j
  have hRed : S16384x64.Reduces [1] S16384 := by decide
  show _ = Ideal.hostReduceAdd hR (mulf A B) (Ideal.ofBits .f32 0x00000000#32) j
  rw [Ideal.hostReduceAdd_single hR hRed, Ideal.ofBits_zero_f32, zero_add]
  refine Finset.sum_congr rfl fun k _ => ?_
  have hl : hRed.lift j k = DotRegion.rowAt j k := by
    funext a; apply Fin.ext
    match a with
    | ⟨0, _⟩ => rfl
    | ⟨1, _⟩ => rfl
  rw [hl]
  rfl

end Cert.KernelIdeal.Bridge

end
-- ==== Proof.lean ====
/-
  The certificate. The kernel computes, for each of 16384 (user, item) queries, the dot product of the user's and the item's
  rows of a propagated embedding table: the rows of the stacked table gathered at 1.2 million column indices, each scaled
  by its edge value (the first pallas_call), summed into a zero table at the row indices, the two halves gathered at the
  query indices, and the rows' products summed over the 64 lanes (the second pallas_call). The reference does the same
  with host operations throughout. Over the extended reals the two results are one function of the arguments: the
  scaling differs only in the order of the two factors and in how the edge value reaches each lane (a reshaped column
  against a broadcast), and the lane sum is the host sum started from 0. Neither law needs the inputs finite.
  The frames of the two kernel programs are the generated ones; the reference's frame is its generated run with the
  result dropped; the ideal pass rewrote nothing, so there is nothing to preserve.
-/
import proofs.«169325_j47425028882648_1_alg».proof.Defs
import proofs.«169325_j47425028882648_1_alg».proof.Proof.Gen.Kernel
import proofs.«169325_j47425028882648_1_alg».proof.Proof.Gen.Kernel.Skeleton
import proofs.«169325_j47425028882648_1_alg».proof.Proof.Gen.Kernel.Launch
import proofs.«169325_j47425028882648_1_alg».proof.Proof.Gen.Kernel.Points
import proofs.«169325_j47425028882648_1_alg».proof.Proof.Gen.Kernel.Frame
import proofs.«169325_j47425028882648_1_alg».proof.Proof.Gen.KernelIdeal
import proofs.«169325_j47425028882648_1_alg».proof.Proof.Gen.KernelIdeal.Skeleton
import proofs.«169325_j47425028882648_1_alg».proof.Proof.Gen.KernelIdeal.Launch
import proofs.«169325_j47425028882648_1_alg».proof.Proof.Gen.KernelIdeal.Points
import proofs.«169325_j47425028882648_1_alg».proof.Proof.Gen.KernelIdeal.Frame
import proofs.«169325_j47425028882648_1_alg».proof.Proof.Gen.ReferenceIdeal
import proofs.«169325_j47425028882648_1_alg».proof.Proof.Gen.ReferenceIdeal.Run
import proofs.«169325_j47425028882648_1_alg».proof.Proof.Gen.Pre_finite_inputs
import proofs.«169325_j47425028882648_1_alg».proof.Proof.KernelValue
import proofs.«169325_j47425028882648_1_alg».proof.Proof.Bridge
import Idealize.ShloMosaic.Adequacy
import Idealize.ShloMosaic.Init

set_option maxRecDepth 16384

noncomputable section

open Idealize.ShloMosaic Idealize.ShloMosaic.TcCoe Idealize.SL.Sem

namespace Cert.Proof

open Cert.KernelIdeal.Stages

/-- The edge values broadcast to a column and then along each row of 64 lanes. -/
def spread (a4 : FVec Ideal Cert.KernelIdeal.S1200000 .f32) : FVec Ideal Cert.KernelIdeal.S1200000x64 .f32 :=
  broadcastInDim Cert.KernelIdeal.S1200000x64 ![0, 1] Cert.ReferenceIdeal.Facts₀.bcast_S1200000x1_S1200000x64_0_1
    (broadcastInDim Cert.KernelIdeal.S1200000x1 ![0] Cert.KernelIdeal.Facts₀.bcast_S1200000_S1200000x1_0 a4)

/-- The reference's result as a function of its arguments, over the shared host stages: the host sum from 0, over the 64
    lanes, of the products of the query users' and items' rows of the table propagated from the spread edge values times
    the gathered rows. -/
def refResult (a0 : FVec Ideal Cert.KernelIdeal.S100000x64 .f32) (a1 : FVec Ideal Cert.KernelIdeal.S50000x64 .f32)
    (a2 a3 : IVec Cert.KernelIdeal.S1200000 32) (a4 : FVec Ideal Cert.KernelIdeal.S1200000 .f32)
    (a5 a6 : IVec Cert.KernelIdeal.S16384 32) : FVec Ideal Cert.KernelIdeal.S16384 .f32 :=
  Host.reduceAdd
    (mulf (userRows a5 (propagated a2 (mulf (spread a4) (gathered a0 a1 a3))))
      (itemRows a6 (propagated a2 (mulf (spread a4) (gathered a0 a1 a3)))))
    (constant (F := Ideal) Cert.KernelIdeal.S_ .f32 0x00000000#32)
    Cert.ReferenceIdeal.Facts₀.reducesTo_S16384x64_S16384_d1 Cert.ReferenceIdeal.Facts₀.h_S_

/-- The kernel's result is the reference's, as functions of the arguments: the scaled rows are the reference's products
    (the factors swapped, the edge value read through a column instead of a broadcast), the row dot products its host sum
    from 0, and every other stage is the same host operation on both sides. -/
theorem value_eq (a0 : FVec Ideal Cert.KernelIdeal.S100000x64 .f32) (a1 : FVec Ideal Cert.KernelIdeal.S50000x64 .f32)
    (a2 a3 : IVec Cert.KernelIdeal.S1200000 32) (a4 : FVec Ideal Cert.KernelIdeal.S1200000 .f32) (a5 a6 : IVec Cert.KernelIdeal.S16384 32) :
    Cert.KernelIdeal.DotRegion.rowDots
        (userRows a5 (propagated a2 (Cert.KernelIdeal.ScaleRegion.scaled (gathered a0 a1 a3) (column a4))))
        (itemRows a6 (propagated a2 (Cert.KernelIdeal.ScaleRegion.scaled (gathered a0 a1 a3) (column a4))))
      = refResult a0 a1 a2 a3 a4 a5 a6 := by
  rw [Cert.KernelIdeal.Bridge.scaled_eq _ _ Cert.KernelIdeal.Facts₀.bcast_S1200000_S1200000x1_0 Cert.ReferenceIdeal.Facts₀.bcast_S1200000x1_S1200000x64_0_1,
    Cert.KernelIdeal.Bridge.rowDots_eq _ _ Cert.ReferenceIdeal.Facts₀.reducesTo_S16384x64_S16384_d1 Cert.ReferenceIdeal.Facts₀.h_S_]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the same result array. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  -- the reference's run ends at `refResult` of the arguments: the same host operations, stage for stage
  exact (value_eq (Cert.KernelIdeal.KernelValue.a0 m c) (Cert.KernelIdeal.KernelValue.a1 m c) (Cert.KernelIdeal.KernelValue.a2 m c)
    (Cert.KernelIdeal.KernelValue.a3 m c) (Cert.KernelIdeal.KernelValue.a4 m c) (Cert.KernelIdeal.KernelValue.a5 m c)
    (Cert.KernelIdeal.KernelValue.a6 m c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
